-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64 : Shape := ⟨3, ![64, 2048, 64]⟩
abbrev S_ : Shape := ⟨0, ![]⟩

class Facts : Prop where
  bcast_S_S64x2048x64 : S_.BroadcastsInDim S64x2048x64 (![] : Fin 0 → Fin S64x2048x64.rank)
  reducesTo_S64x2048x64_S_d0_1_2 : S64x2048x64.ReducesTo [0, 1, 2] S_
  h_S_ : 0 < S_.numel

variable [Facts]

def fn {F : FTy → Type} [FloatOps F] (main_arg0 : FVec F S64x2048x64 .f32) (main_arg1 : FVec F S64x2048x64 .f32) (main_arg2 : FVec F S64x2048x64 .f32) : IVec S_ 1 :=
  let main_v0 : FVec F S64x2048x64 .f32 := Host.absf main_arg0
  let main_cst : FVec F S_ .f32 := constant S_ .f32 0x7F800000#32
  let main_v1 : FVec F S64x2048x64 .f32 := broadcastInDim S64x2048x64 ![] bcast_S_S64x2048x64 main_cst
  let main_v2 : IVec S64x2048x64 1 := cmpf .olt main_v0 main_v1
  let main_c : IVec S_ 1 := constantI S_ 1 1#1
  let main_v3 : IVec S_ 1 := (fun x v => Host.reduce IntOp.andi x v reducesTo_S64x2048x64_S_d0_1_2 h_S_) main_v2 main_c
  let main_v4 : FVec F S64x2048x64 .f32 := Host.absf main_arg1
  let main_cst_0 : FVec F S_ .f32 := constant S_ .f32 0x7F800000#32
  let main_v5 : FVec F S64x2048x64 .f32 := broadcastInDim S64x2048x64 ![] bcast_S_S64x2048x64 main_cst_0
  let main_v6 : IVec S64x2048x64 1 := cmpf .olt main_v4 main_v5
  let main_c_1 : IVec S_ 1 := constantI S_ 1 1#1
  let main_v7 : IVec S_ 1 := (fun x v => Host.reduce IntOp.andi x v reducesTo_S64x2048x64_S_d0_1_2 h_S_) main_v6 main_c_1
  let main_v8 : IVec S_ 1 := andi main_v3 main_v7
  let main_v9 : FVec F S64x2048x64 .f32 := Host.absf main_arg2
  let main_cst_2 : FVec F S_ .f32 := constant S_ .f32 0x7F800000#32
  let main_v10 : FVec F S64x2048x64 .f32 := broadcastInDim S64x2048x64 ![] bcast_S_S64x2048x64 main_cst_2
  let main_v11 : IVec S64x2048x64 1 := cmpf .olt main_v9 main_v10
  let main_c_3 : IVec S_ 1 := constantI S_ 1 1#1
  let main_v12 : IVec S_ 1 := (fun x v => Host.reduce IntOp.andi x v reducesTo_S64x2048x64_S_d0_1_2 h_S_) main_v11 main_c_3
  let main_v13 : IVec S_ 1 := andi main_v8 main_v12
  main_v13
-- ==== Kernel.lean ====
abbrev S64x2048x64 : Shape := ⟨3, ![64, 2048, 64]⟩
abbrev S_ : Shape := ⟨0, ![]⟩
abbrev S64x2048x1 : Shape := ⟨3, ![64, 2048, 1]⟩
abbrev S64x2048x65 : Shape := ⟨3, ![64, 2048, 65]⟩
abbrev S1x512x64 : Shape := ⟨3, ![1, 512, 64]⟩
abbrev S1x2048x64 : Shape := ⟨3, ![1, 2048, 64]⟩
abbrev S1x2048x65 : Shape := ⟨3, ![1, 2048, 65]⟩
abbrev S512x64 : Shape := ⟨2, ![512, 64]⟩
abbrev S2048x64 : Shape := ⟨2, ![2048, 64]⟩
abbrev S2048x65 : Shape := ⟨2, ![2048, 65]⟩
abbrev S512x2048 : Shape := ⟨2, ![512, 2048]⟩
abbrev S512 : Shape := ⟨1, ![512]⟩
abbrev S512x1 : Shape := ⟨2, ![512, 1]⟩
abbrev S512x65 : Shape := ⟨2, ![512, 65]⟩

abbrev nBuf : Space → Nat
  | .hbm => 7
  | .vmem => 8
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S_, .f32⟩
  | .hbm, ⟨4, _⟩ => ⟨S64x2048x1, .f32⟩
  | .hbm, ⟨5, _⟩ => ⟨S64x2048x65, .f32⟩
  | .hbm, ⟨6, _⟩ => ⟨S64x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x65, .f32⟩
  | .local _ .vmem, ⟨5, _⟩ => ⟨S1x2048x65, .f32⟩
  | .local _ .vmem, ⟨6, _⟩ => ⟨S1x512x64, .f32⟩
  | .local _ .vmem, ⟨7, _⟩ => ⟨S1x512x64, .f32⟩
  | _, _ => ⟨S64x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64x2048x1 : S_.BroadcastsInDim S64x2048x1 (![] : Fin 0 → Fin S64x2048x1.rank)
  concatenates_S64x2048x64_S64x2048x1_S64x2048x65_d2 : Shape.Concatenates [S64x2048x64, S64x2048x1] S64x2048x65 2
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x65_S1x2048x65_0_0_0 : ∀ a, (![0, 0, 0] : Fin 3 → Nat) a + S1x2048x65.size a ≤ S1x2048x65.size a
  h_S1x2048x65 : 0 < S1x2048x65.numel
  shapeCasts_S1x2048x65_S2048x65 : S1x2048x65.ShapeCasts S2048x65
  reduces_S512x2048_S512 : S512x2048.Reduces [1] S512
  shapeCasts_S512_S512x1 : S512.ShapeCasts S512x1
  broadcasts_S512x1_S512x2048 : S512x1.Broadcasts S512x2048
  slices_S512x65_o0_0_S512x64 : S512x65.Slices ![0, 0] S512x64
  slices_S512x65_o0_64_S512x1 : S512x65.Slices ![0, 64] S512x1
  broadcasts_S512x1_S512x64 : S512x1.Broadcasts S512x64
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x65_S512x65_1_0_0_1_n_n_wf : DotDims.WF S512x2048 S2048x65 S512x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x65.size a ≤ S64x2048x65.size a
  hwx0_2 : ∀ i : grid0.Coords, EltTy.bits .f32 = 32 ∨ (Rect.block (s := S64x2048x65) S1x2048x65.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x65_S512x65_1_0_0_1_n_n : DotDims S512x2048 S2048x65 S512x65 where
  lhsContracting := [1]
  rhsContracting := [0]
  lhsNonContracting := [0]
  rhsNonContracting := [1]
  lhsBatch := []
  rhsBatch := []
  wf := dot_S512x2048_S2048x65_S512x65_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x64 : Shape := ⟨3, ![64, 2048, 64]⟩
abbrev S64x2048x2048 : Shape := ⟨3, ![64, 2048, 2048]⟩
abbrev S_ : Shape := ⟨0, ![]⟩
abbrev S64x2048 : Shape := ⟨2, ![64, 2048]⟩
abbrev S64x2048x1 : Shape := ⟨3, ![64, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x2048, .f32⟩
  | .hbm, ⟨4, _⟩ => ⟨S_, .f32⟩
  | .hbm, ⟨5, _⟩ => ⟨S64x2048, .f32⟩
  | .hbm, ⟨6, _⟩ => ⟨S_, .f32⟩
  | .hbm, ⟨7, _⟩ => ⟨S64x2048, .f32⟩
  | .hbm, ⟨8, _⟩ => ⟨S64x2048, .f32⟩
  | .hbm, ⟨9, _⟩ => ⟨S64x2048x1, .f32⟩
  | .hbm, ⟨10, _⟩ => ⟨S64x2048x2048, .f32⟩
  | .hbm, ⟨11, _⟩ => ⟨S64x2048x2048, .f32⟩
  | .hbm, ⟨12, _⟩ => ⟨S64x2048x2048, .f32⟩
  | .hbm, ⟨13, _⟩ => ⟨S_, .f32⟩
  | .hbm, ⟨14, _⟩ => ⟨S64x2048, .f32⟩
  | .hbm, ⟨15, _⟩ => ⟨S64x2048x1, .f32⟩
  | .hbm, ⟨16, _⟩ => ⟨S64x2048x2048, .f32⟩
  | .hbm, ⟨17, _⟩ => ⟨S64x2048x2048, .f32⟩
  | .hbm, ⟨18, _⟩ => ⟨S64x2048x64, .f32⟩
  | _, _ => ⟨S64x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  dot_S64x2048x64_S64x2048x64_S64x2048x2048_2_2_1_1_0_0_wf : DotDims.WF S64x2048x64 S64x2048x64 S64x2048x2048 [2] [2] [1] [1] [0] [0]
  dot_S64x2048x2048_S64x2048x64_S64x2048x64_2_1_1_2_0_0_wf : DotDims.WF S64x2048x2048 S64x2048x64 S64x2048x64 [2] [1] [1] [2] [0] [0]

variable [Facts₀]

def dot_S64x2048x64_S64x2048x64_S64x2048x2048_2_2_1_1_0_0 : DotDims S64x2048x64 S64x2048x64 S64x2048x2048 where
  lhsContracting := [2]
  rhsContracting := [2]
  lhsNonContracting := [1]
  rhsNonContracting := [1]
  lhsBatch := [0]
  rhsBatch := [0]
  wf := dot_S64x2048x64_S64x2048x64_S64x2048x2048_2_2_1_1_0_0_wf
def dot_S64x2048x2048_S64x2048x64_S64x2048x64_2_1_1_2_0_0 : DotDims S64x2048x2048 S64x2048x64 S64x2048x64 where
  lhsContracting := [2]
  rhsContracting := [1]
  lhsNonContracting := [1]
  rhsNonContracting := [2]
  lhsBatch := [0]
  rhsBatch := [0]
  wf := dot_S64x2048x2048_S64x2048x64_S64x2048x64_2_1_1_2_0_0_wf

class Facts : Prop extends Facts₀ where

variable [Facts]
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.LibERealSoftmax.lean ====
/- Extended-real facts for a softmax over a finite nonempty family, stated for real-valued data.

   * the f32 patterns of −∞, 0 and 1 as extended reals;
   * the exponential of a real number is a positive real number;
   * a maximum folded from −∞ over a finite nonempty family of real numbers is a real number;
   * normalise-then-sum: for positive real weights p and real values w,
       Σ_j (p_j / (0 + Σ_j' p_j')) · w_j = (Σ_j p_j · w_j) / (Σ_j p_j),
     with the division the ideal instance's: both sides are (Σ_j p_j · w_j) · (1 / Σ_j p_j).
   "x is a real number" is spelt ∃ r : ℝ, x = r throughout, so the file needs no other. At an infinity the two
   sides of the last law can differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Exp
import Mathlib.Tactic.Ring

noncomputable section

namespace Cert.ERealSoftmax

open Idealize.ShloMosaic
open scoped BigOperators

/-! ## Patterns -/

theorem ofBits_negInf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- From −∞ a maximum starts at its other argument. -/
theorem max_negInf_left (x : EReal) : max (Ideal.ofBits .f32 0xFF800000#32) x = x := by
  rw [ofBits_negInf, max_eq_right bot_le]

/-! ## Sums, the exponential, a folded maximum -/

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem exp_isReal {x : EReal} (hx : ∃ r : ℝ, x = (r : EReal)) : ∃ r : ℝ, Ideal.exp x = (r : EReal) := by
  obtain ⟨r, rfl⟩ := hx
  exact ⟨Real.exp r, rfl⟩

theorem exp_pos {x : EReal} (hx : ∃ r : ℝ, x = (r : EReal)) : 0 < Ideal.exp x := by
  obtain ⟨r, rfl⟩ := hx
  show (0 : EReal) < ((Real.exp r : ℝ) : EReal)
  exact_mod_cast Real.exp_pos r

theorem max_isReal {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- A maximum folded from −∞ over a finite set of real numbers is −∞ on the empty set and a real number otherwise. -/
theorem fold_max_bot {ι : Type*} [DecidableEq ι] (f : ι → EReal) (hf : ∀ j, ∃ r : ℝ, f j = (r : EReal)) (s : Finset ι) :
    (s = ∅ ∧ s.fold max (⊥ : EReal) f = ⊥) ∨ ∃ r : ℝ, s.fold max (⊥ : EReal) f = (r : EReal) := by
  induction s using Finset.induction_on with
  | empty => exact Or.inl ⟨rfl, Finset.fold_empty⟩
  | insert a s ha ih =>
    right
    rw [Finset.fold_insert ha]
    rcases ih with ⟨_, h⟩ | h
    · rw [h, max_eq_left bot_le]; exact hf a
    · exact max_isReal (hf a) h

theorem fold_max_isReal {n : Nat} (f : Fin (n + 1) → EReal) (hf : ∀ j, ∃ r : ℝ, f j = (r : EReal)) :
    ∃ r : ℝ, (Finset.univ : Finset (Fin (n + 1))).fold max (⊥ : EReal) f = (r : EReal) := by
  rcases fold_max_bot f hf Finset.univ with ⟨h, _⟩ | h
  · exact absurd h (Finset.univ_nonempty.ne_empty)
  · exact h

/-! ## Normalise, then sum -/

/-- Normalising each positive real weight by the weights' sum and then summing against real values is dividing the
    weighted sum by the weights' sum. -/
theorem normalise_then_sum {ι : Type*} [Fintype ι] [Nonempty ι] (p w : ι → EReal) (hp : ∀ j, ∃ r : ℝ, p j = (r : EReal))
    (hpos : ∀ j, 0 < p j) (hw : ∀ j, ∃ r : ℝ, w j = (r : EReal)) :
    ∑ j, Ideal.div (p j) (0 + ∑ j', p j') * w j = Ideal.div (∑ j, p j * w j) (∑ j, p j) := by
  choose f hf using hp
  choose g hg using hw
  obtain rfl : p = fun j => ((f j : ℝ) : EReal) := funext hf
  obtain rfl : w = fun j => ((g j : ℝ) : EReal) := funext hg
  have hfpos : ∀ j, 0 < f j := fun j => EReal.coe_pos.mp (hpos j)
  have hL : (∑ j, f j) ≠ 0 := (Finset.sum_pos (fun j _ => hfpos j) Finset.univ_nonempty).ne'
  rw [zero_add, coe_sum]
  simp_rw [Ideal.div_coe hL, ← EReal.coe_mul]
  rw [coe_sum, coe_sum, ← EReal.coe_mul]
  congr 1
  rw [Finset.sum_mul]
  exact Finset.sum_congr rfl fun j _ => by ring

end Cert.ERealSoftmax

end
-- ==== Proof.Softmax.lean ====
/- Softmax attention over the extended reals, index by index, and the law that joins its two spellings.

   For arrays q, k, v of shape [64, 2048, 64] and an index (b, r, d):
     score b r j  = Σ_e q[b, r, e] · k[b, j, e]
     rowMax b r   = the maximum over j of score b r j (folded from −∞)
     weight b r j = exp (score b r j − rowMax b r)
   One spelling divides once, after the sum:      (Σ_j weight j · v[b, j, d]) / (Σ_j weight j).
   The other normalises each weight first:          Σ_j (weight j / (0 + Σ_j' weight j')) · v[b, j, d].
   When every entry of q, k, v is a real number the scores and the row maximum are real, each weight is a
   positive real, their sum is a positive real L, and both spellings are (Σ_j weight j · v[b, j, d]) · (1 / L):
   division by a nonzero real is multiplication by its reciprocal, which moves out of a finite real sum.
   At an infinite entry the two spellings can differ, so the law is stated for real-valued arrays only. -/
import Idealize.ShloMosaic.PureOps.Ideal
import Idealize.ShloMosaic.Lib.ValueIdx
import proofs.«418736_j1580547965351_3_alg».proof.Proof.LibERealBatchNorm
import proofs.«418736_j1580547965351_3_alg».proof.Proof.LibERealSoftmax

noncomputable section

namespace Cert.Attn

open Idealize.ShloMosaic Idealize.ShloMosaic.ValueIdx Cert.ERealBN
open scoped BigOperators

/-! ## The specification over the literal shapes -/

abbrev Arr : Type := (⟨3, ![64, 2048, 64]⟩ : Shape).Idx → EReal

/-- The score of query row r against key row j in batch b. -/
def score (q k : Arr) (b : Fin 64) (r j : Fin 2048) : EReal := ∑ e : Fin 64, q (ix3 b r e) * k (ix3 b j e)

/-- The largest score of query row r, folded from −∞. -/
def rowMax (q k : Arr) (b : Fin 64) (r : Fin 2048) : EReal :=
  (Finset.univ : Finset (Fin 2048)).fold max (Ideal.ofBits .f32 0xFF800000#32) (fun j => score q k b r j)

/-- The unnormalised softmax weight of key row j for query row r. -/
def weight (q k : Arr) (b : Fin 64) (r j : Fin 2048) : EReal := Ideal.exp (score q k b r j - rowMax q k b r)

/-- Attention with one division after the sums. -/
def attn (q k v : Arr) (b : Fin 64) (r : Fin 2048) (d : Fin 64) : EReal :=
  Ideal.div (∑ j : Fin 2048, weight q k b r j * v (ix3 b j d)) (∑ j : Fin 2048, weight q k b r j)

/-- Attention with each weight normalised before the sum against the values. -/
def attnNormalised (q k v : Arr) (b : Fin 64) (r : Fin 2048) (d : Fin 64) : EReal :=
  ∑ j : Fin 2048, Ideal.div (weight q k b r j) (Ideal.ofBits .f32 0x00000000#32 + ∑ j' : Fin 2048, weight q k b r j') * v (ix3 b j d)

/-- A value array with one more column. -/
abbrev AugArr : Type := (⟨3, ![64, 2048, 65]⟩ : Shape).Idx → EReal

/-- Attention over a value array with one more column: the weights against column d, over the weights against column 64. -/
def attnAug (q k : Arr) (va : AugArr) (b : Fin 64) (r : Fin 2048) (d : Fin 64) : EReal :=
  Ideal.div (∑ j : Fin 2048, weight q k b r j * va (ix3 b j (⟨d.val, by omega⟩ : Fin 65)))
    (∑ j : Fin 2048, weight q k b r j * va (ix3 b j (⟨64, by decide⟩ : Fin 65)))

/-- When the first 64 columns are the values and column 64 is the constant one, the weights against column 64 are the
    weights' sum, and the augmented form is attention with one division. -/
theorem attnAug_eq_attn (q k v : Arr) (va : AugArr)
    (hv : ∀ (b : Fin 64) (j : Fin 2048) (d : Fin 64), va (ix3 b j (⟨d.val, by omega⟩ : Fin 65)) = v (ix3 b j d))
    (h1 : ∀ (b : Fin 64) (j : Fin 2048), va (ix3 b j (⟨64, by decide⟩ : Fin 65)) = Ideal.ofBits .f32 0x3F800000#32)
    (b : Fin 64) (r : Fin 2048) (d : Fin 64) : attnAug q k va b r d = attn q k v b r d := by
  unfold attnAug attn
  simp_rw [hv, h1, Cert.ERealSoftmax.ofBits_one, mul_one]

theorem isReal_score {q k : Arr} (hq : ∀ i, IsReal (q i)) (hk : ∀ i, IsReal (k i)) (b : Fin 64) (r j : Fin 2048) :
    IsReal (score q k b r j) :=
  IsReal.sum _ _ fun e _ => IsReal.mul (hq _) (hk _)

theorem isReal_rowMax {q k : Arr} (hq : ∀ i, IsReal (q i)) (hk : ∀ i, IsReal (k i)) (b : Fin 64) (r : Fin 2048) :
    IsReal (rowMax q k b r) := by
  unfold rowMax
  rw [Cert.ERealSoftmax.ofBits_negInf]
  exact Cert.ERealSoftmax.fold_max_isReal (n := 2047) _ fun j => isReal_score hq hk b r j

theorem isReal_arg {q k : Arr} (hq : ∀ i, IsReal (q i)) (hk : ∀ i, IsReal (k i)) (b : Fin 64) (r j : Fin 2048) :
    IsReal (score q k b r j - rowMax q k b r) :=
  IsReal.sub (isReal_score hq hk b r j) (isReal_rowMax hq hk b r)

/-- For real-valued arrays the two spellings of attention agree at every index. -/
theorem attnNormalised_eq_attn {q k v : Arr} (hq : ∀ i, IsReal (q i)) (hk : ∀ i, IsReal (k i)) (hv : ∀ i, IsReal (v i))
    (b : Fin 64) (r : Fin 2048) (d : Fin 64) : attnNormalised q k v b r d = attn q k v b r d := by
  unfold attnNormalised attn
  rw [Cert.ERealSoftmax.ofBits_zero]
  exact Cert.ERealSoftmax.normalise_then_sum (fun j => weight q k b r j) (fun j => v (ix3 b j d))
    (fun j => Cert.ERealSoftmax.exp_isReal (isReal_arg hq hk b r j)) (fun j => Cert.ERealSoftmax.exp_pos (isReal_arg hq hk b r j)) (fun j => hv _)

/-! ## The two spellings as whole arrays -/

/-- Attention with one division, as a function of the array index. -/
def attnArr (q k v : Arr) : Arr := fun i =>
  attn q k v ⟨(i 0).val, (i 0).isLt⟩ ⟨(i 1).val, (i 1).isLt⟩ ⟨(i 2).val, (i 2).isLt⟩

/-- Attention with normalised weights, as a function of the array index. -/
def attnNormalisedArr (q k v : Arr) : Arr := fun i =>
  attnNormalised q k v ⟨(i 0).val, (i 0).isLt⟩ ⟨(i 1).val, (i 1).isLt⟩ ⟨(i 2).val, (i 2).isLt⟩

theorem attnNormalisedArr_eq_attnArr {q k v : Arr} (hq : ∀ i, IsReal (q i)) (hk : ∀ i, IsReal (k i)) (hv : ∀ i, IsReal (v i)) :
    attnNormalisedArr q k v = attnArr q k v :=
  funext fun _ => attnNormalised_eq_attn hq hk hv _ _ _

end Cert.Attn

end
-- ==== Proof.Finite.lean ====
/- From the precondition to real-valued inputs.

   The precondition is the conjunction, over the three arguments, of "every entry x has |x| < +∞". On the
   extended reals |x| is max x (−x), which is +∞ at both infinities, so an entry with |x| < +∞ is a real number. -/
import proofs.«418736_j1580547965351_3_alg».proof.Pre_finite_inputs
import proofs.«418736_j1580547965351_3_alg».proof.Proof.Gen.Pre_finite_inputs
import proofs.«418736_j1580547965351_3_alg».proof.Proof.LibERealBatchNorm
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Idealize.ShloMosaic Cert.Pre_finite_inputs Cert.ERealBN

/-- The scalar shape has one index. -/
instance : Subsingleton S_.Idx := ⟨fun a b => funext fun d => d.elim0⟩

/-- An extended real whose absolute value is below +∞ is a real number. -/
theorem isReal_of_abs_lt (x : EReal) (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec
  · simp [Ideal.cmp] at h
  · exact ⟨_, rfl⟩
  · simp [Ideal.cmp] at h

/-- Under the precondition every entry of each argument is a real number. -/
theorem all_real [Facts] (a0 a1 a2 : FVec Ideal S64x2048x64 .f32) (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.mp h0
  obtain ⟨h0', h1⟩ := IntOp.andi_eq_one.mp h01
  exact ⟨fun i => isReal_of_abs_lt (a0 i) (Host.reduce_andi_all _ _ _ _ ValueIdx.ix0 h0' i),
    fun i => isReal_of_abs_lt (a1 i) (Host.reduce_andi_all _ _ _ _ ValueIdx.ix0 h1 i),
    fun i => isReal_of_abs_lt (a2 i) (Host.reduce_andi_all _ _ _ _ ValueIdx.ix0 h2 i)⟩

end Cert.Pre_finite_inputs.Finite

end
-- ==== Proof.RefStages.lean ====
/- The reference's stages read at coordinate indices: its result at (b, r, d) is attention with each weight
   normalised before the sum against the values.

   Stage by stage: the first product at (b, r, j) is the score of query row r against key row j; the row
   maximum at (b, r) is the scores' maximum folded from −∞, and taking the maximum with −∞ once more changes
   nothing; the exponential of score minus row maximum is the weight; the sum over j from the initial value 0
   is the weights' total; the quotient is the normalised weight; the last product sums the normalised weights
   against the values' column d. -/
import proofs.«418736_j1580547965351_3_alg».proof.Proof.Gen.ReferenceIdeal.Read
import proofs.«418736_j1580547965351_3_alg».proof.Proof.Softmax
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Attn

variable (x0 x1 x2 : (⟨S64x2048x64, .f32⟩ : BufTy).Contents (Elt Ideal))

/-! ## The composed index functions at coordinates -/

theorem lidx0 (b : Fin 64) (r j : Fin 2048) (e : Fin 64) : lidx_main_v0 (ix3 b r j) e = ix3 b r e :=
  funext fun a => Fin.ext (by match a with | ⟨0, _⟩ => rfl | ⟨1, _⟩ => rfl | ⟨2, _⟩ => rfl)
theorem ridx0 (b : Fin 64) (r j : Fin 2048) (e : Fin 64) : ridx_main_v0 (ix3 b r j) e = ix3 b j e :=
  funext fun a => Fin.ext (by match a with | ⟨0, _⟩ => rfl | ⟨1, _⟩ => rfl | ⟨2, _⟩ => rfl)
theorem idx45 (b : Fin 64) (r j : Fin 2048) : idx_main_v4 (idx_main_v5 (ix3 b r j)) = ix2 b r :=
  funext fun a => Fin.ext (by match a with | ⟨0, _⟩ => rfl | ⟨1, _⟩ => rfl)
theorem idx910 (b : Fin 64) (r j : Fin 2048) : idx_main_v9 (idx_main_v10 (ix3 b r j)) = ix2 b r :=
  funext fun a => Fin.ext (by match a with | ⟨0, _⟩ => rfl | ⟨1, _⟩ => rfl)
theorem idx8 (b : Fin 64) (r j : Fin 2048) : idx_main_v8 (ix2 b r) j = ix3 b r j :=
  funext fun a => Fin.ext (by match a with | ⟨0, _⟩ => rfl | ⟨1, _⟩ => rfl | ⟨2, _⟩ => rfl)
theorem lidx12 (b : Fin 64) (r : Fin 2048) (d : Fin 64) (j : Fin 2048) : lidx_main_v12 (ix3 b r d) j = ix3 b r j :=
  funext fun a => Fin.ext (by match a with | ⟨0, _⟩ => rfl | ⟨1, _⟩ => rfl | ⟨2, _⟩ => rfl)
theorem ridx12 (b : Fin 64) (r : Fin 2048) (d : Fin 64) (j : Fin 2048) : ridx_main_v12 (ix3 b r d) j = ix3 b j d :=
  funext fun a => Fin.ext (by match a with | ⟨0, _⟩ => rfl | ⟨1, _⟩ => rfl | ⟨2, _⟩ => rfl)

/-! ## The stages -/

/-- The first product at (b, r, j) is the score. -/
theorem scores_at (b : Fin 64) (r j : Fin 2048) : val_main_v0 (F := Ideal) x0 x1 (ix3 b r j) = score x0 x1 b r j := by
  rw [val_main_v0_apply]
  unfold score
  exact Finset.sum_congr rfl fun e _ => by rw [lidx0, ridx0]

/-- The reduced index (b, r) with the dropped coordinate j put back is (b, r, j). -/
theorem lift_at (h : S64x2048x2048.Reduces [2] S64x2048) (b : Fin 64) (r : Fin 2048) (j : Fin (S64x2048x2048.size 2)) :
    h.lift (ix2 b r) j = ix3 b r (⟨j.val, j.isLt⟩ : Fin 2048) :=
  funext fun a => Fin.ext (by match a with | ⟨0, _⟩ => rfl | ⟨1, _⟩ => rfl | ⟨2, _⟩ => rfl)

/-- The row maximum at (b, r) is the scores' maximum folded from −∞. -/
theorem rowMax_at (b : Fin 64) (r : Fin 2048) : val_main_v1 (F := Ideal) x0 x1 (ix2 b r) = rowMax x0 x1 b r := by
  have h : S64x2048x2048.Reduces [2] S64x2048 := by decide
  unfold val_main_v1
  rw [Host.reduce_eq_fold_single FloatOps.maximumf _ _ reducesTo_S64x2048x2048_S64x2048_d2 h h_S_]
  unfold rowMax
  have hf : (val_main_v0 (F := Ideal) x0 x1 ∘ h.lift (ix2 b r)) = fun j : Fin 2048 => score x0 x1 b r j :=
    funext fun j => by
      show val_main_v0 (F := Ideal) x0 x1 (h.lift (ix2 b r) j) = _
      rw [lift_at h b r j]; exact scores_at x0 x1 b r _
  rw [hf]
  rfl

/-- The exponential of score minus row maximum is the weight. -/
theorem weight_at (b : Fin 64) (r j : Fin 2048) : val_main_v7 (F := Ideal) x0 x1 (ix3 b r j) = weight x0 x1 b r j := by
  rw [val_main_v7_apply, val_main_v6_apply, val_main_v5_apply, val_main_v4_apply, val_main_v3_apply, val_main_v2_apply,
    val_main_cst_0_apply, idx45, rowMax_at, scores_at]
  unfold weight
  simp only [Ideal.hostUnary_exp_def, Ideal.subf_def, Ideal.maximumf_def, Ideal.ofBits_def]
  rw [Cert.ERealSoftmax.max_negInf_left]

/-- The sum from 0 over j is the weights' total. -/
theorem total_at (b : Fin 64) (r : Fin 2048) :
    val_main_v8 (F := Ideal) x0 x1 (ix2 b r) = Ideal.ofBits .f32 0x00000000#32 + ∑ j : Fin 2048, weight x0 x1 b r j := by
  rw [val_main_v8_apply, val_main_cst_1_apply]
  refine congrArg (_ + ·) (Finset.sum_congr rfl fun j _ => ?_)
  rw [idx8, weight_at]

/-- The quotient is the normalised weight. -/
theorem normalised_at (b : Fin 64) (r j : Fin 2048) :
    val_main_v11 (F := Ideal) x0 x1 (ix3 b r j)
      = Ideal.div (weight x0 x1 b r j) (Ideal.ofBits .f32 0x00000000#32 + ∑ j' : Fin 2048, weight x0 x1 b r j') := by
  rw [val_main_v11_apply, val_main_v10_apply, val_main_v9_apply, idx910, total_at, weight_at]
  rfl

/-- The reference's result at (b, r, d). -/
theorem result_at (b : Fin 64) (r : Fin 2048) (d : Fin 64) :
    val_main_v12 (F := Ideal) x0 x1 x2 (ix3 b r d) = attnNormalised x0 x1 x2 b r d := by
  rw [val_main_v12_apply]
  unfold attnNormalised
  exact Finset.sum_congr rfl fun j _ => by rw [lidx12, ridx12, normalised_at]

/-- The reference's result array is attention with normalised weights. -/
theorem result_eq : val_main_v12 (F := Ideal) x0 x1 x2 = attnNormalisedArr x0 x1 x2 := by
  funext i
  obtain ⟨b, r, d, rfl⟩ : ∃ (b : Fin 64) (r : Fin 2048) (d : Fin 64), i = ix3 b r d := ⟨i 0, i 1, i 2, eq_ix3 i⟩
  exact result_at x0 x1 x2 b r d

end Cert.ReferenceIdeal.RefValue

end
-- ==== Proof.KernelBody.lean ====
/- The kernel body's stored value at an index, as a function of the three loaded blocks.

   The body loads a [1, 512, 64] block of queries x0, a [1, 2048, 64] block of keys x1 and a [1, 2048, 65] block x2
   of values with one more column. With
     s r j = Σ_e x0[0, r, e] · x1[0, j, e]     (the first matrix product, into zero),
     M r   = the maximum over j of s r j, folded from −∞,
     w r j = exp (s r j − M r),
   the second matrix product, into zero, is A r c = Σ_j w r j · x2[0, j, c] for c < 65, and the stored value at
   (0, r, d) is A r d / A r 64: columns 0..63 of A divided by its column 64 broadcast along the row.
   A change of float format is the identity on the extended reals. -/
import proofs.«418736_j1580547965351_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

variable (x0 : Vec Ideal S1x512x64 .f32) (x1 : Vec Ideal S1x2048x64 .f32) (x2 : Vec Ideal S1x2048x65 .f32)

/-! ## The body's intermediate values, named -/

/-- The scores: queries times keys, contracted over the feature axis, into zero. -/
def scores : FVec Ideal S512x2048 .f32 :=
  matmul dot_S512x64_S2048x64_S512x2048_1_1_0_0_n_n none
    (truncf .bf16 (shapeCast S512x64 x0 shapeCasts_S1x512x64_S512x64) bitsLt_bf16_f32)
    (truncf .bf16 (shapeCast S2048x64 x1 shapeCasts_S1x2048x64_S2048x64) bitsLt_bf16_f32)
    (constant S512x2048 .f32 0x00000000#32)

/-- Each row's largest score. -/
def rowMaxes : FVec Ideal S512 .f32 :=
  multiReduction .maximumf [1] S512 (scores x0 x1) 0xFF800000#32 reduces_S512x2048_S512 (.inl rfl) rfl

/-- The unnormalised weights. -/
def weights : FVec Ideal S512x2048 .f32 :=
  exp (subf (scores x0 x1) (broadcastTo S512x2048 (shapeCast S512x1 (rowMaxes x0 x1) shapeCasts_S512_S512x1) broadcasts_S512x1_S512x2048))

/-- The weights times the 65-column block: columns 0..63 the weighted values, column 64 the weights against the extra column. -/
def weighted : FVec Ideal S512x65 .f32 :=
  matmul dot_S512x2048_S2048x65_S512x65_1_0_0_1_n_n none
    (truncf .bf16 (weights x0 x1) bitsLt_bf16_f32)
    (truncf .bf16 (shapeCast S2048x65 x2 shapeCasts_S1x2048x65_S2048x65) bitsLt_bf16_f32)
    (constant S512x65 .f32 0x00000000#32)

/-- The stored value over the named intermediate values. -/
theorem payload_eq : k0_pay1 (F := Ideal) x0 x1 x2
    = shapeCast S1x512x64 (divf (extractStridedSlice S512x64 ![0, 0] (weighted x0 x1 x2) slices_S512x65_o0_0_S512x64)
        (broadcastTo S512x64 (extractStridedSlice S512x1 ![0, 64] (weighted x0 x1 x2) slices_S512x65_o0_64_S512x1) broadcasts_S512x1_S512x64))
        shapeCasts_S512x64_S1x512x64 := rfl

/-! ## The first product's operand indices -/

theorem lhs_scores_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_scores_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_scores_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_scores_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score of row r against key row j. -/
theorem scores_at (r : Fin 512) (j : Fin 2048) :
    scores x0 x1 (ix2 r j) = ∑ e : Fin 64, x0 (ix3 (0 : Fin 1) r e) * x1 (ix3 (0 : Fin 1) j e) := by
  unfold scores
  simp only [matmul]
  rw [Ideal.matmul_constant_zero_apply, ← Equiv.sum_comp (ValueIdx.contrEquiv1 dot_S512x64_S2048x64_S512x2048_1_1_0_0_n_n 64 rfl rfl).symm]
  refine Finset.sum_congr rfl fun e _ => ?_
  have hk := ValueIdx.contrEquiv1_symm_val dot_S512x64_S2048x64_S512x2048_1_1_0_0_n_n 64 rfl rfl e
  have el : dot_S512x64_S2048x64_S512x2048_1_1_0_0_n_n.lhsIdx (ix2 r j) ((ValueIdx.contrEquiv1 dot_S512x64_S2048x64_S512x2048_1_1_0_0_n_n 64 rfl rfl).symm e) = ix2 r e := funext fun a => Fin.ext (by
    match a with
    | ⟨0, _⟩ => exact lhs_scores_0 _ _
    | ⟨1, _⟩ => exact (lhs_scores_1 _ _).trans hk)
  have er : dot_S512x64_S2048x64_S512x2048_1_1_0_0_n_n.rhsIdx (ix2 r j) ((ValueIdx.contrEquiv1 dot_S512x64_S2048x64_S512x2048_1_1_0_0_n_n 64 rfl rfl).symm e) = ix2 j e := funext fun a => Fin.ext (by
    match a with
    | ⟨0, _⟩ => exact rhs_scores_0 _ _
    | ⟨1, _⟩ => exact (rhs_scores_1 _ _).trans hk)
  rw [el, er]
  show shapeCast S512x64 x0 shapeCasts_S1x512x64_S512x64 (ix2 r e) * shapeCast S2048x64 x1 shapeCasts_S1x2048x64_S2048x64 (ix2 j e) = _
  rw [shapeCast_1ab_ab_apply, shapeCast_1ab_ab_apply]

/-! ## The row maximum and the weights -/

/-- The reduced index r with the dropped coordinate j put back is (r, j). -/
theorem lift_at (r : Fin 512) (j : Fin (S512x2048.size 1)) :
    reduces_S512x2048_S512.lift (ix1 r) j = ix2 r (⟨j.val, j.isLt⟩ : Fin 2048) :=
  funext fun a => Fin.ext (by match a with | ⟨0, _⟩ => rfl | ⟨1, _⟩ => rfl)

/-- Row r's largest score, folded from −∞. -/
theorem rowMaxes_at (r : Fin 512) :
    rowMaxes x0 x1 (ix1 r) = (Finset.univ : Finset (Fin 2048)).fold max (Ideal.ofBits .f32 0xFF800000#32) (fun j => scores x0 x1 (ix2 r j)) := by
  unfold rowMaxes
  refine (Ideal.multiReduction_maximumf_single (scores x0 x1) 0xFF800000#32 reduces_S512x2048_S512 (.inl rfl) rfl (ix1 r)).trans ?_
  have hf : (scores x0 x1 ∘ reduces_S512x2048_S512.lift (ix1 r)) = fun j : Fin 2048 => scores x0 x1 (ix2 r j) :=
    funext fun j => by
      show scores x0 x1 (reduces_S512x2048_S512.lift (ix1 r) j) = _
      rw [lift_at r j]
      rfl
  rw [hf]
  rfl

/-- The weight of key row j for row r. -/
theorem weights_at (r : Fin 512) (j : Fin 2048) :
    weights x0 x1 (ix2 r j) = Ideal.exp (scores x0 x1 (ix2 r j) - rowMaxes x0 x1 (ix1 r)) := by
  unfold weights
  show Ideal.exp (scores x0 x1 (ix2 r j)
    - broadcastTo S512x2048 (shapeCast S512x1 (rowMaxes x0 x1) shapeCasts_S512_S512x1) broadcasts_S512x1_S512x2048 (ix2 r j)) = _
  rw [broadcastTo_apply _ broadcasts_S512x1_S512x2048 (ix2 r j) (ix2 r (0 : Fin 1)) (fun a => match a with
      | ⟨0, _⟩ => by show r.val = if (512 : Nat) = 1 then 0 else r.val; rw [if_neg (by decide)]
      | ⟨1, _⟩ => by show 0 = if (1 : Nat) = 1 then 0 else j.val; rw [if_pos rfl]),
    shapeCast_apply _ shapeCasts_S512_S512x1 (ix2 r (0 : Fin 1)) (ix1 r) (by
      rw [Shape.rowMajor_val_one, Shape.rowMajor_val_two]
      show r.val = r.val * 1 + 0
      omega)]

/-! ## The second product's operand indices -/

theorem lhs_weighted_0 (i : S512x65.Idx) (q : dot_S512x2048_S2048x65_S512x65_1_0_0_1_n_n.contr.Idx) :
    (dot_S512x2048_S2048x65_S512x65_1_0_0_1_n_n.lhsIdx i q 0).val = (i 0).val := by
  unfold DotDims.lhsIdx
  rw [dif_neg (show ¬(0 : Fin S512x2048.rank) ∈ dot_S512x2048_S2048x65_S512x65_1_0_0_1_n_n.lhsBatch by decide), dif_pos (show (0 : Fin S512x2048.rank) ∈ dot_S512x2048_S2048x65_S512x65_1_0_0_1_n_n.lhsNonContracting by decide)]
  rfl
theorem lhs_weighted_1 (i : S512x65.Idx) (q : dot_S512x2048_S2048x65_S512x65_1_0_0_1_n_n.contr.Idx) :
    (dot_S512x2048_S2048x65_S512x65_1_0_0_1_n_n.lhsIdx i q 1).val = (q ⟨0, by decide⟩).val :=
  dot_S512x2048_S2048x65_S512x65_1_0_0_1_n_n.lhsIdx_val_of_single rfl i q
theorem rhs_weighted_0 (i : S512x65.Idx) (q : dot_S512x2048_S2048x65_S512x65_1_0_0_1_n_n.contr.Idx) :
    (dot_S512x2048_S2048x65_S512x65_1_0_0_1_n_n.rhsIdx i q 0).val = (q ⟨0, by decide⟩).val :=
  dot_S512x2048_S2048x65_S512x65_1_0_0_1_n_n.rhsIdx_val_of_single rfl i q
theorem rhs_weighted_1 (i : S512x65.Idx) (q : dot_S512x2048_S2048x65_S512x65_1_0_0_1_n_n.contr.Idx) :
    (dot_S512x2048_S2048x65_S512x65_1_0_0_1_n_n.rhsIdx i q 1).val = (i 1).val := by
  unfold DotDims.rhsIdx
  rw [dif_neg (show ¬(1 : Fin S2048x65.rank) ∈ dot_S512x2048_S2048x65_S512x65_1_0_0_1_n_n.rhsBatch by decide), dif_pos (show (1 : Fin S2048x65.rank) ∈ dot_S512x2048_S2048x65_S512x65_1_0_0_1_n_n.rhsNonContracting by decide)]
  rfl

/-- Column c of the weights against the 65-column block, for row r. -/
theorem weighted_at (r : Fin 512) (c : Fin 65) :
    weighted x0 x1 x2 (ix2 r c) = ∑ j : Fin 2048, weights x0 x1 (ix2 r j) * x2 (ix3 (0 : Fin 1) j c) := by
  unfold weighted
  simp only [matmul]
  rw [Ideal.matmul_constant_zero_apply, ← Equiv.sum_comp (ValueIdx.contrEquiv1 dot_S512x2048_S2048x65_S512x65_1_0_0_1_n_n 2048 rfl rfl).symm]
  refine Finset.sum_congr rfl fun j _ => ?_
  have hk := ValueIdx.contrEquiv1_symm_val dot_S512x2048_S2048x65_S512x65_1_0_0_1_n_n 2048 rfl rfl j
  have el : dot_S512x2048_S2048x65_S512x65_1_0_0_1_n_n.lhsIdx (ix2 r c) ((ValueIdx.contrEquiv1 dot_S512x2048_S2048x65_S512x65_1_0_0_1_n_n 2048 rfl rfl).symm j) = ix2 r j := funext fun a => Fin.ext (by
    match a with
    | ⟨0, _⟩ => exact lhs_weighted_0 _ _
    | ⟨1, _⟩ => exact (lhs_weighted_1 _ _).trans hk)
  have er : dot_S512x2048_S2048x65_S512x65_1_0_0_1_n_n.rhsIdx (ix2 r c) ((ValueIdx.contrEquiv1 dot_S512x2048_S2048x65_S512x65_1_0_0_1_n_n 2048 rfl rfl).symm j) = ix2 j c := funext fun a => Fin.ext (by
    match a with
    | ⟨0, _⟩ => exact (rhs_weighted_0 _ _).trans hk
    | ⟨1, _⟩ => exact rhs_weighted_1 _ _)
  rw [el, er]
  show weights x0 x1 (ix2 r j) * shapeCast S2048x65 x2 shapeCasts_S1x2048x65_S2048x65 (ix2 j c) = _
  rw [shapeCast_1ab_ab_apply]

/-! ## The stored value at an index -/

/-- The stored value at (0, r, d): column d of the weighted block over its column 64. -/
theorem payload_at (u : Fin 1) (r : Fin 512) (d : Fin 64) :
    k0_pay1 (F := Ideal) x0 x1 x2 (ix3 u r d)
      = Ideal.div (weighted x0 x1 x2 (ix2 r (⟨d.val, by omega⟩ : Fin 65))) (weighted x0 x1 x2 (ix2 r (⟨64, by decide⟩ : Fin 65))) := by
  rw [payload_eq, shapeCast_ab_1ab_apply]
  show Ideal.div (extractStridedSlice S512x64 ![0, 0] (weighted x0 x1 x2) slices_S512x65_o0_0_S512x64 (ix2 r d))
    (broadcastTo S512x64 (extractStridedSlice S512x1 ![0, 64] (weighted x0 x1 x2) slices_S512x65_o0_64_S512x1) broadcasts_S512x1_S512x64 (ix2 r d)) = _
  rw [slice2_axis1_apply 0 (weighted x0 x1 x2) slices_S512x65_o0_0_S512x64 r d (⟨d.val, by omega⟩ : Fin 65) (by simp),
    broadcastTo_apply _ broadcasts_S512x1_S512x64 (ix2 r d) (ix2 r (0 : Fin 1)) (fun a => match a with
      | ⟨0, _⟩ => by show r.val = if (512 : Nat) = 1 then 0 else r.val; rw [if_neg (by decide)]
      | ⟨1, _⟩ => by show 0 = if (1 : Nat) = 1 then 0 else d.val; rw [if_pos rfl]),
    slice2_axis1_apply 64 (weighted x0 x1 x2) slices_S512x65_o0_64_S512x1 r (0 : Fin 1) (⟨64, by decide⟩ : Fin 65) (by simp)]

end Cert.KernelIdeal.Body

end
-- ==== Proof.KernelWhole.lean ====
/- The kernel's result array as one function of the argument arrays.

   The grid has 64 × 4 points; point t works on batch b = t / 4 and query tile t % 4. It loads rows
   512·(t % 4) .. 512·(t % 4) + 511 of the queries of batch b, all 2048 key rows of batch b and all 2048 rows
   of the 65-column value array of batch b, and writes back rows 512·(t % 4) .. of the result of batch b. Each
   written element (b, R, d) is the augmented attention of the whole arrays at (b, R, d); the 256 written
   blocks tile the result array (element (b, R, d) lies in the block of point 4·b + R / 512). The 65-column
   array is the values with a column of ones appended by the host before the launch, so the augmented
   attention is attention with one division. -/
import proofs.«418736_j1580547965351_3_alg».proof.Proof.Gen.KernelIdeal.Value
import proofs.«418736_j1580547965351_3_alg».proof.Proof.KernelBody
import proofs.«418736_j1580547965351_3_alg».proof.Proof.Softmax
import Idealize.ShloMosaic.Lib.Pipeline.Value
import Idealize.ShloMosaic.Lib.StableHlo.Run

noncomputable section

namespace Cert.KernelIdeal.Whole

open Cert.KernelIdeal Cert.KernelIdeal.Gen Cert.KernelIdeal.Body
open Idealize.ShloMosaic Idealize.ShloMosaic.TcCoe Idealize.SL.Sem Idealize.ShloMosaic.ValueIdx Cert.Attn Cert.ERealBN
open Idealize.ShloMosaic.Pipeline (Dat)

/-! ## One point, over variables -/

/-- If the three loaded blocks are row R's queries, the keys and the augmented values of batch b, the stored
    value at row y 1 and column y 2 of the block is the augmented attention at (b, R, y 2). -/
theorem point_eq (q k : Arr) (va : AugArr) (x0 : Vec Ideal S1x512x64 .f32) (x1 : Vec Ideal S1x2048x64 .f32) (x2 : Vec Ideal S1x2048x65 .f32)
    (y : S1x512x64.Idx) (b : Fin 64) (R : Fin 2048) (d : Fin 64) (hd : d.val = (y 2).val)
    (h0 : ∀ e : Fin 64, x0 (ix3 (0 : Fin 1) (⟨(y 1).val, (y 1).isLt⟩ : Fin 512) e) = q (ix3 b R e))
    (h1 : ∀ (j : Fin 2048) (e : Fin 64), x1 (ix3 (0 : Fin 1) j e) = k (ix3 b j e))
    (h2 : ∀ (j : Fin 2048) (c : Fin 65), x2 (ix3 (0 : Fin 1) j c) = va (ix3 b j c)) :
    k0_pay1 (F := Ideal) x0 x1 x2 y = attnAug q k va b R d := by
  obtain ⟨u, r, d', rfl⟩ : ∃ (u : Fin 1) (r : Fin 512) (d' : Fin 64), y = ix3 u r d' := ⟨y 0, y 1, y 2, eq_ix3 y⟩
  obtain rfl : d = d' := Fin.ext hd
  have h0' : ∀ e : Fin 64, x0 (ix3 (0 : Fin 1) r e) = q (ix3 b R e) := h0
  have hw : ∀ j : Fin 2048, weights x0 x1 (ix2 r j) = weight q k b R j := fun j => by
    rw [weights_at, rowMaxes_at]
    simp only [scores_at, h0', h1]
    rfl
  rw [payload_at, weighted_at, weighted_at]
  unfold attnAug
  simp only [hw, h2]

/-! ## The arrays as the launch finds them, at their literal types -/

variable (m : (ℓ : Loc nD τ sig) → Buf (Elt Ideal) ℓ) (ρ : Dev nD → PrngReg)

abbrev qarr (c : Dev nD) : Arr := V m c main_arg0
abbrev karr (c : Dev nD) : Arr := V m c main_arg1
abbrev vaug (c : Dev nD) : AugArr := V m c main_v1

/-- What the result array ends holding: the augmented attention of the arrays as the launch finds them. -/
def G (c : Dev nD) : Arr := fun i =>
  attnAug (qarr m c) (karr m c) (vaug m c) ⟨(i 0).val, (i 0).isLt⟩ ⟨(i 1).val, (i 1).isLt⟩ ⟨(i 2).val, (i 2).isLt⟩

/-! ## What a point writes back -/

theorem hz : (![0, 0, 0] : Fin 3 → Nat) = fun _ => 0 := funext fun a => by fin_cases a <;> rfl

/-- The printed index maps over the grid: the queries' and the result's windows follow (t / 4, t % 4, 0), the keys' and
    the augmented values' windows (t / 4, 0, 0). -/
theorem idx_facts : ∀ t : Fin cfg0.N, win0_3.index t (0 : Fin 3) = t.val / 4 ∧ win0_3.index t (1 : Fin 3) = t.val % 4 ∧ win0_3.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- Point t writes back block t of G. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz]
  simp only [View.ld_unit_zero (S := S1x512x64) hz, View.ld_unit_zero (S := S1x2048x64) hz, View.ld_unit_zero (S := S1x2048x65) hz]
  obtain ⟨e30, e31, e32, e00, e01, e02, e10, e11, e12, e20, e21, e22⟩ := idx_facts t
  funext y
  show k0_pay1 (F := Ideal) (iblk m c 0 t) (iblk m c 1 t) (iblk m c 2 t) y = G m c (((cfg0.win 3).blk t).view.emb y)
  unfold G
  have hy0 : (y 0).val < 1 := (y 0).isLt
  refine point_eq (qarr m c) (karr m c) (vaug m c) (iblk m c 0 t) (iblk m c 1 t) (iblk m c 2 t) y _ _ _ ?_ ?_ ?_ ?_
  · show win0_3.index t (2 : Fin 3) * 64 + 1 * (y 2).val = (y 2).val
    omega
  · intro e
    show V m c main_arg0 (((cfg0.win 0).blk t).view.emb (ix3 (0 : Fin 1) (⟨(y 1).val, (y 1).isLt⟩ : Fin 512) e)) = V m c main_arg0 _
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 512 + 1 * (y 1).val = win0_3.index t (1 : Fin 3) * 512 + 1 * (y 1).val; omega
    | ⟨2, _⟩ => show win0_0.index t (2 : Fin 3) * 64 + 1 * e.val = e.val; omega
  · intro j e
    show V m c main_arg1 (((cfg0.win 1).blk t).view.emb (ix3 (0 : Fin 1) j e)) = V m c main_arg1 _
    refine congrArg (V m c main_arg1) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * e.val = e.val; omega
  · intro j e
    show V m c main_v1 (((cfg0.win 2).blk t).view.emb (ix3 (0 : Fin 1) j e)) = V m c main_v1 _
    refine congrArg (V m c main_v1) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 65 + 1 * e.val = e.val; omega

/-! ## The written blocks tile the array -/

/-- An index of the array is in point t's block iff each coordinate is in the block's range on its axis. -/
theorem mem_blk (t : Fin cfg0.N) (i : S64x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v2).slice (win0_3.rect t)).set ↔ _
  rw [View.set_slice_whole, Rect.mem_set_unit]
  exact Iff.rfl

/-- Element (b, R, d) lies in the block of point 4·b + R / 512. -/
theorem cover (i : S64x2048x64.Idx) : ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  have hN : cfg0.N = 256 := N_0
  have hlt : (i 0).val * 4 + (i 1).val / 512 < cfg0.N := by rw [hN]; omega
  obtain ⟨e30, e31, e32, -⟩ := idx_facts ⟨(i 0).val * 4 + (i 1).val / 512, hlt⟩
  refine ⟨⟨(i 0).val * 4 + (i 1).val / 512, hlt⟩, flush0_3 _, ?_⟩
  rw [mem_blk]
  intro a
  match a with
  | ⟨0, _⟩ =>
    show win0_3.index ⟨(i 0).val * 4 + (i 1).val / 512, hlt⟩ (0 : Fin 3) * 1 ≤ (i 0).val ∧ (i 0).val < win0_3.index ⟨(i 0).val * 4 + (i 1).val / 512, hlt⟩ (0 : Fin 3) * 1 + 1
    rw [e30]; show ((i 0).val * 4 + (i 1).val / 512) / 4 * 1 ≤ (i 0).val ∧ (i 0).val < ((i 0).val * 4 + (i 1).val / 512) / 4 * 1 + 1; omega
  | ⟨1, _⟩ =>
    show win0_3.index ⟨(i 0).val * 4 + (i 1).val / 512, hlt⟩ (1 : Fin 3) * 512 ≤ (i 1).val ∧ (i 1).val < win0_3.index ⟨(i 0).val * 4 + (i 1).val / 512, hlt⟩ (1 : Fin 3) * 512 + 512
    rw [e31]; show ((i 0).val * 4 + (i 1).val / 512) % 4 * 512 ≤ (i 1).val ∧ (i 1).val < ((i 0).val * 4 + (i 1).val / 512) % 4 * 512 + 512; omega
  | ⟨2, _⟩ =>
    show win0_3.index ⟨(i 0).val * 4 + (i 1).val / 512, hlt⟩ (2 : Fin 3) * 64 ≤ (i 2).val ∧ (i 2).val < win0_3.index ⟨(i 0).val * 4 + (i 1).val / 512, hlt⟩ (2 : Fin 3) * 64 + 64
    rw [e32]; omega

/-- The result array after the run is G. -/
theorem final (c : Dev nD) : (dats m 0 c).arrAt 3 cfg0.N = G m c :=
  (dats m 0 c).arrAt_eq_of_cover 3 (G m c) (fun t _ => flushed_eq m c t) cover

/-! ## The 65-column array the host builds before the launch -/

/-- It is the values with a column of the constant one appended. -/
theorem vaug_eq (c : Dev nD) : vaug m c
    = concatenate S64x2048x65 2 [⟨S64x2048x64, m ((c : Thread nD τ).loc main_arg2)⟩,
        ⟨S64x2048x1, broadcastInDim S64x2048x1 ![] bcast_S_S64x2048x1 (constant (F := Ideal) S_ .f32 0x3F800000#32)⟩]
        concatenates_S64x2048x64_S64x2048x1_S64x2048x65_d2 := by
  show (V m c main_v1 : S64x2048x65.Idx → EReal) = _
  dsimp only [Gen.V, Gen.hostOps0]
  after_results

/-- Its first 64 columns are the values. -/
theorem vaug_values (c : Dev nD) (b : Fin 64) (j : Fin 2048) (d : Fin 64) :
    vaug m c (ix3 b j (⟨d.val, by omega⟩ : Fin 65)) = (m ((c : Thread nD τ).loc main_arg2) : Arr) (ix3 b j d) := by
  rw [vaug_eq]
  exact concatenate_pair_apply_left (t := S64x2048x65) (s₁ := S64x2048x64) (s₂ := S64x2048x1) 2 _ _ _ (ix3 b j (⟨d.val, by omega⟩ : Fin 65)) rfl (ix3 b j d)
    (fun a => match a with | ⟨0, _⟩ => rfl | ⟨1, _⟩ => rfl | ⟨2, _⟩ => rfl)

/-- Its column 64 is the constant one. -/
theorem vaug_one (c : Dev nD) (b : Fin 64) (j : Fin 2048) :
    vaug m c (ix3 b j (⟨64, by decide⟩ : Fin 65)) = Ideal.ofBits .f32 0x3F800000#32 := by
  rw [vaug_eq]
  refine (concatenate_pair_apply_right (t := S64x2048x65) (s₁ := S64x2048x64) (s₂ := S64x2048x1) 2 _ _ _ (ix3 b j (⟨64, by decide⟩ : Fin 65)) rfl rfl (ix3 b j (0 : Fin 1))
    (fun a ha => match a, ha with
      | ⟨0, _⟩, _ => rfl
      | ⟨1, _⟩, _ => rfl
      | ⟨2, _⟩, ha => absurd rfl ha) rfl).trans ?_
  rfl

/-- So G is attention with one division of the argument arrays. -/
theorem G_eq (c : Dev nD) :
    G m c = attnArr (m ((c : Thread nD τ).loc main_arg0)) (m ((c : Thread nD τ).loc main_arg1)) (m ((c : Thread nD τ).loc main_arg2)) := by
  have hq : qarr m c = m ((c : Thread nD τ).loc main_arg0) := V_main_arg0 m c
  have hk : karr m c = m ((c : Thread nD τ).loc main_arg1) := V_main_arg1 m c
  funext i
  unfold G attnArr
  rw [hq, hk]
  exact attnAug_eq_attn _ _ (m ((c : Thread nD τ).loc main_arg2)) (vaug m c) (vaug_values m c) (vaug_one m c) _ _ _

/-! ## The run -/

/-- Every weakly fair execution of the kernel's program ends with the result array at attention with one division
    of the argument arrays, the arguments unchanged. -/
theorem run : θ_run defs (onTc (τ := τ) (main (F := Ideal))) ⟨m, fun _ => 0, ρ⟩ fun r => ∀ c : Dev nD,
      r.2.mem ((c : Thread nD τ).loc main_v2)
        = attnArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (G_eq m c)), (h c).2⟩) (Value.run_blocks m ρ)

end Cert.KernelIdeal.Whole

end
-- ==== Proof.lean ====
/- Softmax attention over [64, 2048, 64] arrays q, k, v: the kernel against its reference.

   Both programs compute, at (b, r, d), from the scores s_j = Σ_e q[b, r, e] · k[b, j, e] and the weights
   w_j = exp (s_j − max_j s_j), the weighted average of column d of v. The kernel appends a column of ones to v
   before the launch, multiplies the weights with the 65-column array and divides column d of the product by its
   column 64, that is (Σ_j w_j · v[b, j, d]) / (Σ_j w_j): one division after the sums. The reference normalises each
   weight, w_j / (0 + Σ_j' w_j'), and then sums against v. On the extended reals, where a change of float format is
   the identity and both matrix products are plain sums, the two agree whenever q, k and v hold real numbers — the
   precondition —: the weights are positive reals, their sum L is a positive real, and division by L is
   multiplication by 1 / L, which moves out of a finite real sum.

   The frames of the two kernel programs are the generated ones; the reference's is its generated run with the result
   dropped. The idealization rewrote nothing, so there is nothing to preserve. -/
import proofs.«418736_j1580547965351_3_alg».proof.Defs
import proofs.«418736_j1580547965351_3_alg».proof.Proof.Gen.Kernel
import proofs.«418736_j1580547965351_3_alg».proof.Proof.Gen.Kernel.Skeleton
import proofs.«418736_j1580547965351_3_alg».proof.Proof.Gen.Kernel.Launch
import proofs.«418736_j1580547965351_3_alg».proof.Proof.Gen.Kernel.Points
import proofs.«418736_j1580547965351_3_alg».proof.Proof.Gen.Kernel.Frame
import proofs.«418736_j1580547965351_3_alg».proof.Proof.Gen.KernelIdeal
import proofs.«418736_j1580547965351_3_alg».proof.Proof.Gen.KernelIdeal.Skeleton
import proofs.«418736_j1580547965351_3_alg».proof.Proof.Gen.KernelIdeal.Launch
import proofs.«418736_j1580547965351_3_alg».proof.Proof.Gen.KernelIdeal.Points
import proofs.«418736_j1580547965351_3_alg».proof.Proof.Gen.KernelIdeal.Frame
import proofs.«418736_j1580547965351_3_alg».proof.Proof.Gen.ReferenceIdeal
import proofs.«418736_j1580547965351_3_alg».proof.Proof.Gen.Pre_finite_inputs
import proofs.«418736_j1580547965351_3_alg».proof.Proof.Gen.KernelIdeal.Value
import proofs.«418736_j1580547965351_3_alg».proof.Proof.Gen.ReferenceIdeal.Run
import proofs.«418736_j1580547965351_3_alg».proof.Proof.Gen.ReferenceIdeal.Read
import proofs.«418736_j1580547965351_3_alg».proof.Proof.Softmax
import proofs.«418736_j1580547965351_3_alg».proof.Proof.Finite
import proofs.«418736_j1580547965351_3_alg».proof.Proof.RefStages
import proofs.«418736_j1580547965351_3_alg».proof.Proof.KernelWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at attention with one division of the argument arrays: the kernel's by its
    value, the reference's by its stages, the arguments' agreement, the inputs being real under the precondition, and
    the law between the two spellings. -/
theorem algebraic : Cert.algebraic_KernelIdeal_ReferenceIdeal := by
  intro m ρ m' ρ' hpre hagree
  refine ⟨fun c => Cert.Attn.attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2.1, (hagree c).2.2]
  obtain ⟨h0, h1, h2⟩ := Cert.Pre_finite_inputs.Finite.all_real _ _ _ (hpre c)
  exact Cert.Attn.attnNormalisedArr_eq_attnArr h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
